-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x512 : Shape := ⟨3, ![4, 8192, 512]⟩
abbrev S512x512 : Shape := ⟨2, ![512, 512]⟩
abbrev S4096 : Shape := ⟨1, ![4096]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x8192x512 .f32) (main_arg1 : IVec S512x512 32) (main_arg2 : FVec F S4096 .f32) (main_arg3 : FVec F S512x512 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x8192x512 : Shape := ⟨3, ![4, 8192, 512]⟩
abbrev S512x512 : Shape := ⟨2, ![512, 512]⟩
abbrev S4096 : Shape := ⟨1, ![4096]⟩
abbrev S16 : Shape := ⟨1, ![16]⟩
abbrev S_ : Shape := ⟨0, ![]⟩
abbrev S512x512x1 : Shape := ⟨3, ![512, 512, 1]⟩
abbrev S4096x64 : Shape := ⟨2, ![4096, 64]⟩
abbrev S4096x1 : Shape := ⟨2, ![4096, 1]⟩
abbrev S32768x512 : Shape := ⟨2, ![32768, 512]⟩
abbrev S2048x512 : Shape := ⟨2, ![2048, 512]⟩

abbrev nBuf : Space → Nat
  | .hbm => 26
  | .vmem => 6
  | .smem => 0
  | _ => 0

abbrev bufTy : (tb : Table) → Fin (tcTables nBuf tb) → BufTy
  | .hbm, ⟨0, _⟩ => ⟨S4x8192x512, .f32⟩
  | .hbm, ⟨1, _⟩ => ⟨S512x512, .i32⟩
  | .hbm, ⟨2, _⟩ => ⟨S4096, .f32⟩
  | .hbm, ⟨3, _⟩ => ⟨S512x512, .f32⟩
  | .hbm, ⟨4, _⟩ => ⟨S16, .f32⟩
  | .hbm, ⟨5, _⟩ => ⟨S_, .i32⟩
  | .hbm, ⟨6, _⟩ => ⟨S512x512, .i32⟩
  | .hbm, ⟨7, _⟩ => ⟨S512x512, .i1⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512x1, .i32⟩
  | .hbm, ⟨13, _⟩ => ⟨S512x512, .f32⟩
  | .hbm, ⟨14, _⟩ => ⟨S4096x64, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S512x512, .f32⟩
  | .hbm, ⟨19, _⟩ => ⟨S512x512, .f32⟩
  | .hbm, ⟨20, _⟩ => ⟨S512x512, .bf16⟩
  | .hbm, ⟨21, _⟩ => ⟨S512x512, .f32⟩
  | .hbm, ⟨22, _⟩ => ⟨S512x512, .bf16⟩
  | .hbm, ⟨23, _⟩ => ⟨S32768x512, .f32⟩
  | .hbm, ⟨24, _⟩ => ⟨S32768x512, .f32⟩
  | .hbm, ⟨25, _⟩ => ⟨S4x8192x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  shapeCasts_S512x512_S4096x64 : S512x512.ShapeCasts S4096x64
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S4096x64_S512x512 : S4096x64.ShapeCasts S512x512
  transposes_S512x512_S512x512_1_0 : S512x512.Transposes [1, 0] S512x512
  bitsLt_bf16_f32 : FTy.bits .bf16 < FTy.bits .f32
  shapeCasts_S4x8192x512_S32768x512 : S4x8192x512.ShapeCasts S32768x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S32768x512_S4x8192x512 : S32768x512.ShapeCasts S4x8192x512
  gather_S16_S512x512x1_S512x512_n_0_n_n_0_2_1_wf : GatherDims.WF S16 S512x512x1 S512x512 [] [0] [] [0] [] 2 ![1]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def gather_S16_S512x512x1_S512x512_n_0_n_n_0_2_1 : GatherDims S16 S512x512x1 S512x512 where
  offsetDims := []
  collapsedSliceDims := [0]
  operandBatchingDims := []
  startIndicesBatchingDims := []
  startIndexMap := [0]
  indexVectorDim := 2
  sliceSizes := ![1]
  wf := gather_S16_S512x512x1_S512x512_n_0_n_n_0_2_1_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v16) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x512 : Shape := ⟨3, ![4, 8192, 512]⟩
abbrev S512x512 : Shape := ⟨2, ![512, 512]⟩
abbrev S4096 : Shape := ⟨1, ![4096]⟩
abbrev S16 : Shape := ⟨1, ![16]⟩
abbrev S_ : Shape := ⟨0, ![]⟩
abbrev S512x512x1 : Shape := ⟨3, ![512, 512, 1]⟩
abbrev S4096x64 : Shape := ⟨2, ![4096, 64]⟩
abbrev S4096x1 : Shape := ⟨2, ![4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S512x512, .i32⟩
  | .hbm, ⟨2, _⟩ => ⟨S4096, .f32⟩
  | .hbm, ⟨3, _⟩ => ⟨S512x512, .f32⟩
  | .hbm, ⟨4, _⟩ => ⟨S16, .f32⟩
  | .hbm, ⟨5, _⟩ => ⟨S_, .i32⟩
  | .hbm, ⟨6, _⟩ => ⟨S512x512, .i32⟩
  | .hbm, ⟨7, _⟩ => ⟨S512x512, .i1⟩
  | .hbm, ⟨8, _⟩ => ⟨S_, .i32⟩
  | .hbm, ⟨9, _⟩ => ⟨S512x512, .i32⟩
  | .hbm, ⟨10, _⟩ => ⟨S512x512, .i32⟩
  | .hbm, ⟨11, _⟩ => ⟨S512x512, .i32⟩
  | .hbm, ⟨12, _⟩ => ⟨S512x512x1, .i32⟩
  | .hbm, ⟨13, _⟩ => ⟨S512x512, .f32⟩
  | .hbm, ⟨14, _⟩ => ⟨S4096x64, .f32⟩
  | .hbm, ⟨15, _⟩ => ⟨S4096x1, .f32⟩
  | .hbm, ⟨16, _⟩ => ⟨S4096x64, .f32⟩
  | .hbm, ⟨17, _⟩ => ⟨S4096x64, .f32⟩
  | .hbm, ⟨18, _⟩ => ⟨S512x512, .f32⟩
  | .hbm, ⟨19, _⟩ => ⟨S4x8192x512, .f32⟩
  | .hbm, ⟨20, _⟩ => ⟨S4x8192x512, .f32⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  shapeCasts_S512x512_S4096x64 : S512x512.ShapeCasts S4096x64
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  shapeCasts_S4096x64_S512x512 : S4096x64.ShapeCasts S512x512
  gather_S16_S512x512x1_S512x512_n_0_n_n_0_2_1_wf : GatherDims.WF S16 S512x512x1 S512x512 [] [0] [] [0] [] 2 ![1]
  dot_S4x8192x512_S512x512_S4x8192x512_2_1_01_0_n_n_wf : DotDims.WF S4x8192x512 S512x512 S4x8192x512 [2] [1] [0, 1] [0] [] []

variable [Facts₀]

def gather_S16_S512x512x1_S512x512_n_0_n_n_0_2_1 : GatherDims S16 S512x512x1 S512x512 where
  offsetDims := []
  collapsedSliceDims := [0]
  operandBatchingDims := []
  startIndicesBatchingDims := []
  startIndexMap := [0]
  indexVectorDim := 2
  sliceSizes := ![1]
  wf := gather_S16_S512x512x1_S512x512_n_0_n_n_0_2_1_wf
def dot_S4x8192x512_S512x512_S4x8192x512_2_1_01_0_n_n : DotDims S4x8192x512 S512x512 S4x8192x512 where
  lhsContracting := [2]
  rhsContracting := [1]
  lhsNonContracting := [0, 1]
  rhsNonContracting := [0]
  lhsBatch := []
  rhsBatch := []
  wf := dot_S4x8192x512_S512x512_S4x8192x512_2_1_01_0_n_n_wf

class Facts : Prop extends Facts₀ where

variable [Facts]
-- ==== Proof.MatmulAt.lean ====
/-
  A 2048 × 512 by 512 × 512 matrix product into a zero accumulator, read at one entry over the extended reals:
  entry (p, q) is the sum over k of left (p, k) times right (k, q). The product contracts the left operand's
  second axis with the right operand's first; the left operand's first axis and the right operand's second are
  the result's two axes, in that order.
-/
import proofs.«131805_j34935263985944_1_alg».proof.Proof.Gen.KernelIdeal
import Idealize.ShloMosaic.Lib.ValueIdx
import Idealize.ShloMosaic.PureOps.Ideal.Laws

noncomputable section

namespace Cert.KernelIdeal.MatmulAt

open Idealize.ShloMosaic Idealize.ShloMosaic.ValueIdx Cert.KernelIdeal Cert.KernelIdeal.Gen

/-- The left operand's row is the result's row. -/
theorem lhs_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column is the summation index. -/
theorem lhs_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The right operand's row is the summation index. -/
theorem rhs_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The right operand's column is the result's column. -/
theorem rhs_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (p, q) of the product into zero is the sum over k of left (p, k) · right (k, q). -/
theorem matmul_at {φ₁ φ₂ : FTy} (l : FVec Ideal S2048x512 φ₁) (r : FVec Ideal S512x512 φ₂) (p : Fin 2048) (q : Fin 512) :
    matmul dot_S2048x512_S512x512_S2048x512_1_0_0_1_n_n none l r (constant S2048x512 .f32 0x00000000#32) (ix2 p q)
      = ∑ k : Fin 512, l (ix2 p k) * r (ix2 k q) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun a => Fin.ext (by
    match a with
    | ⟨0, _⟩ => exact (rhs_0 _ _).trans hk
    | ⟨1, _⟩ => exact rhs_1 _ _)
  rw [el, er]

end Cert.KernelIdeal.MatmulAt

end
-- ==== Proof.Payload.lean ====
/-
  What the kernel body stores, read at one entry over the extended reals. The body multiplies its 2048 × 512 block
  of the input by a 512 × 512 matrix, and the product by a second 512 × 512 matrix, each time into a zero
  accumulator; the changes of float format in between are the identity on the extended reals. So entry (p, q) of what
  it stores is the sum over k of (the sum over d of block (p, d) · first (d, k)) · second (k, q).
-/
import proofs.«131805_j34935263985944_1_alg».proof.Proof.Gen.KernelIdeal.Skeleton
import proofs.«131805_j34935263985944_1_alg».proof.Proof.MatmulAt
import Idealize.ShloMosaic.Lib.Pipeline.Value

noncomputable section

namespace Cert.KernelIdeal.Payload

open Idealize.ShloMosaic Idealize.ShloMosaic.ValueIdx Cert.KernelIdeal Cert.KernelIdeal.Gen

/-- The stored value at (p, q): the two products, one after the other. -/
theorem pay_at (x0 : Vec Ideal S2048x512 .f32) (x1 x2 : Vec Ideal S512x512 .bf16) (p : Fin 2048) (q : Fin 512) :
    k0_pay1 (F := Ideal) x0 x1 x2 (ix2 p q)
      = ∑ k : Fin 512, (∑ d : Fin 512, x0 (ix2 p d) * x1 (ix2 d k)) * x2 (ix2 k q) := by
  unfold k0_pay1
  rw [MatmulAt.matmul_at]
  refine Finset.sum_congr rfl fun k _ => ?_
  rw [truncf_apply, MatmulAt.matmul_at]
  simp only [shapeCast_self, truncf_apply]

/-- The same at an index given whole. -/
theorem pay_idx (x0 : Vec Ideal S2048x512 .f32) (x1 x2 : Vec Ideal S512x512 .bf16) (j : S2048x512.Idx) :
    k0_pay1 (F := Ideal) x0 x1 x2 j
      = ∑ k : Fin 512, (∑ d : Fin 512, x0 (ix2 ⟨(j 0).val, idx2_lt0 j⟩ d) * x1 (ix2 d k)) * x2 (ix2 k ⟨(j 1).val, idx2_lt1 j⟩) := by
  obtain ⟨p, q, rfl⟩ : ∃ (p : Fin 2048) (q : Fin 512), j = ix2 p q := ⟨j 0, j 1, eq_ix2 j⟩
  exact pay_at x0 x1 x2 p q

end Cert.KernelIdeal.Payload

end
-- ==== Proof.Blocks.lean ====
/-
  From blocks to the array, and on to the result. The output array has 32768 rows of 512; grid point t writes rows
  2048·t … 2048·t + 2047, all 512 columns, and the sixteen points' blocks tile the array. What point t writes is the
  restriction to those rows of ONE function of the three arrays the region reads:
      out X A B (r, o) = Σ_k (Σ_d X (r, d) · A (d, k)) · B (k, o),
  because row r of the input block at point t is row 2048·t + r of X, and the two matrices are read whole at every
  point. So after the run the output array is `out` of those arrays, and the one host operation after the region
  views it as 4 × 8192 × 512.
-/
import proofs.«131805_j34935263985944_1_alg».proof.Proof.Gen.KernelIdeal.Frame
import proofs.«131805_j34935263985944_1_alg».proof.Proof.Payload
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Entry (r, o) of the two products, one after the other, of whole arrays. -/
def outAt (X : S32768x512.Idx → EReal) (A B : S512x512.Idx → EReal) (r : Fin 32768) (o : Fin 512) : EReal :=
  ∑ k : Fin 512, (∑ d : Fin 512, X (ix2 r d) * A (ix2 d k)) * B (ix2 k o)

/-- The whole output array as a function of the three arrays the region reads. -/
def out (X : S32768x512.Idx → EReal) (A B : S512x512.Idx → EReal) : S32768x512.Idx → EReal :=
  fun i => outAt X A B ⟨(i 0).val, idx2_lt0 i⟩ ⟨(i 1).val, idx2_lt1 i⟩

theorem hz : (![0, 0] : Fin 2 → Nat) = fun _ => 0 := funext fun a => by fin_cases a <;> rfl

/-- The index maps over the sixteen points: the input's and the output's blocks are row block t, column block 0;
    the two matrices' block is always the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `out` of the arrays as the region finds them. -/
theorem flushed_eq (c : Dev nD) (t : Fin cfg0.N) :
    (dats m 0 c).flushed 3 t
      = ((cfg0.win 3).blk t).view.read (Elt Ideal) (out (V m c main_v16) (V m c main_v13) (V m c main_v15)) := by
  show (cfg0.win 3).cut (grid0.coords t) ((dats m 0 c).after 3 t) = _
  rw [after0_3]
  unfold out0_3
  rw [View.canon_unit_zero hz]
  simp only [View.ld_unit_zero (S := S2048x512) hz, View.ld_unit_zero (S := S512x512) hz]
  obtain ⟨e0, e1, e2, e3, e4, e5, e6, e7⟩ := idx_facts t
  funext j
  show k0_pay1 (F := Ideal) (iblk m c 0 t) (iblk m c 1 t) (iblk m c 2 t) j
    = out (V m c main_v16) (V m c main_v13) (V m c main_v15) (((cfg0.win 3).blk t).view.emb j)
  refine (Payload.pay_idx (iblk m c 0 t) (iblk m c 1 t) (iblk m c 2 t) j).trans ?_
  unfold out outAt
  refine Finset.sum_congr rfl fun k _ => ?_
  refine congrArg₂ (· * ·) (Finset.sum_congr rfl fun d _ => congrArg₂ (· * ·) ?_ ?_) ?_
  · show V m c main_v16 (((cfg0.win 0).blk t).view.emb (ix2 ⟨(j 0).val, idx2_lt0 j⟩ d)) = V m c main_v16 (ix2 _ d)
    refine congrArg (V m c main_v16) (funext fun a => Fin.ext ?_)
    match a with
    | ⟨0, _⟩ =>
      show win0_0.index t (0 : Fin 2) * 2048 + 1 * (j 0).val = win0_3.index t (0 : Fin 2) * 2048 + 1 * (j 0).val
      omega
    | ⟨1, _⟩ =>
      show win0_0.index t (1 : Fin 2) * 512 + 1 * d.val = d.val
      omega
  · show V m c main_v13 (((cfg0.win 1).blk t).view.emb (ix2 d k)) = V m c main_v13 (ix2 d k)
    refine congrArg (V m c main_v13) (funext fun a => Fin.ext ?_)
    match a with
    | ⟨0, _⟩ =>
      show win0_1.index t (0 : Fin 2) * 512 + 1 * d.val = d.val
      omega
    | ⟨1, _⟩ =>
      show win0_1.index t (1 : Fin 2) * 512 + 1 * k.val = k.val
      omega
  · show V m c main_v15 (((cfg0.win 2).blk t).view.emb (ix2 k ⟨(j 1).val, idx2_lt1 j⟩)) = V m c main_v15 (ix2 k _)
    refine congrArg (V m c main_v15) (funext fun a => Fin.ext ?_)
    match a with
    | ⟨0, _⟩ =>
      show win0_2.index t (0 : Fin 2) * 512 + 1 * k.val = k.val
      omega
    | ⟨1, _⟩ =>
      show win0_2.index t (1 : Fin 2) * 512 + 1 * (j 1).val = win0_3.index t (1 : Fin 2) * 512 + 1 * (j 1).val
      omega

/-- An index of the array is in point t's block iff each coordinate is in the block's range on its axis. -/
theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v17).slice (win0_3.rect t)).set ↔ _
  rw [View.set_slice_whole, Rect.mem_set_unit]
  exact Iff.rfl

/-- Every row r is in the block of point r / 2048. -/
theorem cover (i : S32768x512.Idx) :
    ∃ t : Fin cfg0.N, (cfg0.win 3).flush t = true ∧ i ∈ ((cfg0.win 3).blk t).view.set := by
  have hi0 : (i 0).val < 32768 := idx2_lt0 i
  have hi1 : (i 1).val < 512 := idx2_lt1 i
  have hN : cfg0.N = 16 := N_0
  let t : Fin cfg0.N := ⟨(i 0).val / 2048, by rw [hN]; omega⟩
  obtain ⟨_, _, _, _, _, _, e6, e7⟩ := idx_facts t
  have ht : t.val = (i 0).val / 2048 := rfl
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- The output array after the run. -/
theorem final (c : Dev nD) :
    (dats m 0 c).arrAt 3 cfg0.N = out (V m c main_v16) (V m c main_v13) (V m c main_v15) :=
  (dats m 0 c).arrAt_eq_of_cover 3 _ (fun t _ => flushed_eq m c t) cover

end Cert.KernelIdeal.Blocks

end
-- ==== Proof.Weight.lean ====
/-
  The dequantized 512 × 512 weight, as one function of the code array and the scales: each 4-bit code
  (a negative code first wrapped by adding 16) looks up one of sixteen fixed values, the 512 × 512 array of looked-up
  values is viewed as 4096 rows of 64, row g is multiplied by scale g, and the result is viewed 512 × 512 again.
  Both programs compute it by the same operations on the same inputs, so nothing here opens the lookup: the
  function is only named, and the two programs' spellings of it are shown to be the same term.
-/
import proofs.«131805_j34935263985944_1_alg».proof.Proof.Gen.KernelIdeal
import proofs.«131805_j34935263985944_1_alg».proof.Proof.Gen.ReferenceIdeal

noncomputable section

namespace Cert.Dequant

open Idealize.ShloMosaic

variable {F : FTy → Type} [FloatOps F]

section
open Cert.KernelIdeal Cert.KernelIdeal.Gen

/-- The sixteen code values, as an array. -/
def table : (⟨S16, .f32⟩ : BufTy).Contents (Elt F) := fun i => FloatOps.ofBits .f32 (lit0 (S16.rowMajor i))

/-- The dequantized weight of codes `q` and scales `s` over the code values `tab`. -/
def wl (tab : (⟨S16, .f32⟩ : BufTy).Contents (Elt F)) (q : (⟨S512x512, .i32⟩ : BufTy).Contents (Elt F))
    (s : (⟨S4096, .f32⟩ : BufTy).Contents (Elt F)) : (⟨S512x512, .f32⟩ : BufTy).Contents (Elt F) :=
  shapeCast S512x512
    (mulf
      (shapeCast S4096x64
        (Host.gather gather_S16_S512x512x1_S512x512_n_0_n_n_0_2_1 tab
          (broadcastInDim S512x512x1 ![0, 1] bcast_S512x512_S512x512x1_0_1
            (select (cmpi CmpIPredicate.slt q (broadcastInDim S512x512 ![] bcast_S_S512x512 (constantI S_ 32 0#32)))
              (addi q (broadcastInDim S512x512 ![] bcast_S_S512x512 (constantI S_ 32 16#32))) q)))
        shapeCasts_S512x512_S4096x64)
      (broadcastInDim S4096x64 ![0, 1] bcast_S4096x1_S4096x64_0_1 (broadcastInDim S4096x1 ![0] bcast_S4096_S4096x1_0 s)))
    shapeCasts_S4096x64_S512x512

end

section
open Cert.ReferenceIdeal Cert.ReferenceIdeal.Gen

/-- The reference's table of code values is the same sixteen words. -/
theorem lit_ref : Cert.ReferenceIdeal.lit0 = Cert.KernelIdeal.lit0 := by
  funext j; fin_cases j <;> rfl

/-- The reference's spelling of the dequantized weight is `wl` over `table`. -/
theorem wl_ref (q : (⟨S512x512, .i32⟩ : BufTy).Contents (Elt F)) (s : (⟨S4096, .f32⟩ : BufTy).Contents (Elt F)) :
    shapeCast S512x512
      (mulf
        (shapeCast S4096x64
          (Host.gather gather_S16_S512x512x1_S512x512_n_0_n_n_0_2_1 (fun i => FloatOps.ofBits .f32 (Cert.ReferenceIdeal.lit0 (S16.rowMajor i)))
            (broadcastInDim S512x512x1 ![0, 1] bcast_S512x512_S512x512x1_0_1
              (select (cmpi CmpIPredicate.slt q (broadcastInDim S512x512 ![] bcast_S_S512x512 (constantI S_ 32 0#32)))
                (addi q (broadcastInDim S512x512 ![] bcast_S_S512x512 (constantI S_ 32 16#32))) q)))
          shapeCasts_S512x512_S4096x64)
        (broadcastInDim S4096x64 ![0, 1] bcast_S4096x1_S4096x64_0_1 (broadcastInDim S4096x1 ![0] bcast_S4096_S4096x1_0 s)))
      shapeCasts_S4096x64_S512x512
    = wl (F := F) table q s := by
  rw [lit_ref]
  rfl

end

end Cert.Dequant

end
-- ==== Proof.Entry.lean ====
/-
  The three arrays the kernel's windows read, as the region finds them. The host operations before the region
  leave: the input viewed as 32768 rows of 512; the transpose of the dequantized weight; the transpose of the dense
  weight (the two changes of float format are written as they are printed; on the extended reals they do nothing).
-/
import proofs.«131805_j34935263985944_1_alg».proof.Proof.Gen.KernelIdeal.Frame
import proofs.«131805_j34935263985944_1_alg».proof.Proof.Weight
import Idealize.ShloMosaic.Lib.StableHlo.Run

noncomputable section

namespace Cert.KernelIdeal.Entry

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The first window's array: the input as 32768 rows. -/
theorem rows_eq (c : Dev nD) :
    (V m c main_v16 : (⟨S32768x512, .f32⟩ : BufTy).Contents (Elt F))
      = shapeCast S32768x512 (m ((c : Thread nD τ).loc main_arg0)) shapeCasts_S4x8192x512_S32768x512 := by
  show StableHlo.after hostOps0 (fun b => m (c, b)) (Proc.devRef .tc main_v16) = _
  after_results
  rfl

/-- The second window's array: the dequantized weight, transposed. -/
theorem first_eq (c : Dev nD) :
    (V m c main_v13 : (⟨S512x512, .bf16⟩ : BufTy).Contents (Elt F))
      = truncf .bf16 (transpose S512x512 [1, 0]
          (Cert.Dequant.wl Cert.Dequant.table (m ((c : Thread nD τ).loc main_arg1)) (m ((c : Thread nD τ).loc main_arg2)))
          transposes_S512x512_S512x512_1_0) bitsLt_bf16_f32 := by
  show StableHlo.after hostOps0 (fun b => m (c, b)) (Proc.devRef .tc main_v13) = _
  after_results
  rfl

/-- The third window's array: the dense weight, transposed. -/
theorem second_eq (c : Dev nD) :
    (V m c main_v15 : (⟨S512x512, .bf16⟩ : BufTy).Contents (Elt F))
      = truncf .bf16 (transpose S512x512 [1, 0] (m ((c : Thread nD τ).loc main_arg3)) transposes_S512x512_S512x512_1_0) bitsLt_bf16_f32 := by
  show StableHlo.after hostOps0 (fun b => m (c, b)) (Proc.devRef .tc main_v15) = _
  after_results

end Cert.KernelIdeal.Entry

end
-- ==== Proof.KernelRun.lean ====
/-
  The kernel program's run, read back. The region leaves the 32768 × 512 output array at `out` of the arrays it
  read; the one host operation after the region views that array as 4 × 8192 × 512 in the result buffer; nothing
  writes the four argument arrays. With the three arrays the region reads spelled out as host terms of the arguments,
  the result buffer ends at one term of the argument arrays.
-/
import proofs.«131805_j34935263985944_1_alg».proof.Proof.Blocks
import proofs.«131805_j34935263985944_1_alg».proof.Proof.Entry

noncomputable section

namespace Cert.KernelIdeal.Run

open Idealize.ShloMosaic Idealize.ShloMosaic.TcCoe Idealize.ShloMosaic.ValueIdx Idealize.SL.Sem
open Cert.KernelIdeal Cert.KernelIdeal.Gen Cert.KernelIdeal.Blocks

variable (m : (ℓ : Loc nD τ sig) → Buf (Elt Ideal) ℓ) (ρ : Dev nD → PrngReg)

/-- The result buffer after the host operation that follows the region. -/
theorem tail_eq (c : Dev nD) :
    Pipeline.afterTail₀ cfgs (dats m) 0 (V0 m) [hostOps1] c main_v18
      = shapeCast S4x8192x512 (out (V m c main_v16) (V m c main_v13) (V m c main_v15)) shapeCasts_S32768x512_S4x8192x512 := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v17)
      = out (V m c main_v16) (V m c main_v13) (V m c main_v15) :=
    (Pipeline.withArrays_arr spec0 launch0.win.arr_inj c _ _ 3).trans (final m c)
  rw [e]
  rfl

/-- The kernel program's result, as one term of the four argument arrays. -/
def result (x : (⟨S4x8192x512, .f32⟩ : BufTy).Contents (Elt Ideal)) (q : (⟨S512x512, .i32⟩ : BufTy).Contents (Elt Ideal))
    (s : (⟨S4096, .f32⟩ : BufTy).Contents (Elt Ideal)) (w : (⟨S512x512, .f32⟩ : BufTy).Contents (Elt Ideal)) :
    (⟨S4x8192x512, .f32⟩ : BufTy).Contents (Elt Ideal) :=
  shapeCast S4x8192x512
    (out (shapeCast S32768x512 x shapeCasts_S4x8192x512_S32768x512)
      (truncf (F := Ideal) .bf16 (transpose S512x512 [1, 0] (Cert.Dequant.wl (F := Ideal) Cert.Dequant.table q s) transposes_S512x512_S512x512_1_0) bitsLt_bf16_f32)
      (truncf (F := Ideal) .bf16 (transpose S512x512 [1, 0] w transposes_S512x512_S512x512_1_0) bitsLt_bf16_f32))
    shapeCasts_S32768x512_S4x8192x512

/-- On every device, from any memory with zero counters: every weakly fair execution of the kernel program terminates
    with the result buffer at `result` of the arguments and the arguments unchanged. -/
theorem run : θ_run defs (onTc (τ := τ) (main (F := Ideal))) ⟨m, fun _ => 0, ρ⟩ fun r => ∀ c : Dev nD,
      r.2.mem ((c.tc : Thread nD τ).loc main_v18) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(((h c).2 main_v18 (Pipeline.mem_restRefs_of main_v18 (by decide) (by decide))).trans (tail_eq m c)).trans (by
        rw [Entry.rows_eq, Entry.first_eq, Entry.second_eq]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.HostRun.lean ====
/-
  The reference program is a straight line of seventeen host operations: fifteen that build the dequantized weight
  from the codes and the scales, then two contractions. Run from any memory it terminates with the result buffer at
  the second contraction, of (the first contraction of the input with the dequantized weight) with the dense weight,
  and with the four argument arrays unchanged.
-/
import proofs.«131805_j34935263985944_1_alg».proof.Proof.Gen.ReferenceIdeal
import proofs.«131805_j34935263985944_1_alg».proof.Proof.Weight
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The program's seventeen operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S512x512 ![] bcast_S_S512x512 : (⟨S_, .i32⟩ : BufTy).Contents (Elt F) → (⟨S512x512, .i32⟩ : BufTy).Contents (Elt F)),
    binary main_arg1 main_v0 main_v1 (cmpi .slt : (⟨S512x512, .i32⟩ : BufTy).Contents (Elt F) → (⟨S512x512, .i32⟩ : BufTy).Contents (Elt F) → (⟨S512x512, .i1⟩ : BufTy).Contents (Elt F)),
    nullary main_c_0 (constantI S_ 32 16#32),
    unary main_c_0 main_v2 (broadcastInDim S512x512 ![] bcast_S_S512x512 : (⟨S_, .i32⟩ : BufTy).Contents (Elt F) → (⟨S512x512, .i32⟩ : BufTy).Contents (Elt F)),
    binary main_arg1 main_v2 main_v3 (addi : (⟨S512x512, .i32⟩ : BufTy).Contents (Elt F) → (⟨S512x512, .i32⟩ : BufTy).Contents (Elt F) → (⟨S512x512, .i32⟩ : BufTy).Contents (Elt F)),
    ternary main_v1 main_v3 main_arg1 main_v4 (select : (⟨S512x512, .i1⟩ : BufTy).Contents (Elt F) → (⟨S512x512, .i32⟩ : BufTy).Contents (Elt F) → (⟨S512x512, .i32⟩ : BufTy).Contents (Elt F) → (⟨S512x512, .i32⟩ : BufTy).Contents (Elt F)),
    unary main_v4 main_v5 (broadcastInDim S512x512x1 ![0, 1] bcast_S512x512_S512x512x1_0_1 : (⟨S512x512, .i32⟩ : BufTy).Contents (Elt F) → (⟨S512x512x1, .i32⟩ : BufTy).Contents (Elt F)),
    binary main_cst main_v5 main_v6 ((fun x i => Host.gather gather_S16_S512x512x1_S512x512_n_0_n_n_0_2_1 x i) : (⟨S16, .f32⟩ : BufTy).Contents (Elt F) → (⟨S512x512x1, .i32⟩ : BufTy).Contents (Elt F) → (⟨S512x512, .f32⟩ : BufTy).Contents (Elt F)),
    reshape main_v6 main_v7 rfl shapeCasts_S512x512_S4096x64,
    unary main_arg2 main_v8 (broadcastInDim S4096x1 ![0] bcast_S4096_S4096x1_0 : (⟨S4096, .f32⟩ : BufTy).Contents (Elt F) → (⟨S4096x1, .f32⟩ : BufTy).Contents (Elt F)),
    unary main_v8 main_v9 (broadcastInDim S4096x64 ![0, 1] bcast_S4096x1_S4096x64_0_1 : (⟨S4096x1, .f32⟩ : BufTy).Contents (Elt F) → (⟨S4096x64, .f32⟩ : BufTy).Contents (Elt F)),
    binary main_v7 main_v9 main_v10 (mulf : (⟨S4096x64, .f32⟩ : BufTy).Contents (Elt F) → (⟨S4096x64, .f32⟩ : BufTy).Contents (Elt F) → (⟨S4096x64, .f32⟩ : BufTy).Contents (Elt F)),
    reshape main_v10 main_v11 rfl shapeCasts_S4096x64_S512x512,
    binary main_arg0 main_v11 main_v12 ((fun l r => Host.dotGeneral dot_S4x8192x512_S512x512_S4x8192x512_2_1_01_0_n_n none l r) : (⟨S4x8192x512, .f32⟩ : BufTy).Contents (Elt F) → (⟨S512x512, .f32⟩ : BufTy).Contents (Elt F) → (⟨S4x8192x512, .f32⟩ : BufTy).Contents (Elt F)),
    binary main_v12 main_arg3 main_v13 ((fun l r => Host.dotGeneral dot_S4x8192x512_S512x512_S4x8192x512_2_1_01_0_n_n none l r) : (⟨S4x8192x512, .f32⟩ : BufTy).Contents (Elt F) → (⟨S512x512, .f32⟩ : BufTy).Contents (Elt F) → (⟨S4x8192x512, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., reshape_bufs_sub .., unary_bufs_sub .., unary_bufs_sub .., binary_bufs_sub .., reshape_bufs_sub .., binary_bufs_sub .., binary_bufs_sub ..⟩

/-- The result: the input contracted with the dequantized weight, then with the dense weight. -/
def result (x : (⟨S4x8192x512, .f32⟩ : BufTy).Contents (Elt F)) (q : (⟨S512x512, .i32⟩ : BufTy).Contents (Elt F))
    (s : (⟨S4096, .f32⟩ : BufTy).Contents (Elt F)) (w : (⟨S512x512, .f32⟩ : BufTy).Contents (Elt F)) :
    (⟨S4x8192x512, .f32⟩ : BufTy).Contents (Elt F) :=
  Host.dotGeneral dot_S4x8192x512_S512x512_S4x8192x512_2_1_01_0_n_n none
    (Host.dotGeneral dot_S4x8192x512_S512x512_S4x8192x512_2_1_01_0_n_n none x (Cert.Dequant.wl Cert.Dequant.table q s)) w

/-- The fold of the seventeen operations at the result buffer is `result` of the arguments. -/
theorem after_result (V : Valuation τ sig (Elt F)) :
    after (ops (F := F)) V (Proc.devRef .tc main_v13)
      = result (V (Proc.devRef .tc main_arg0)) (V (Proc.devRef .tc main_arg1)) (V (Proc.devRef .tc main_arg2)) (V (Proc.devRef .tc main_arg3)) := by
  after_results
  unfold result
  rw [← Cert.Dequant.wl_ref]
  rfl

/-- On every device, from any memory with zero counters: every weakly fair execution terminates with the result
    buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (after_result _),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.HostRun

end
-- ==== Proof.DotAt.lean ====
/-
  The contraction of a 4 × 8192 × 512 array's last axis with a 512 × 512 matrix's second axis, read at one
  entry over the extended reals: entry (b, s, o) is the sum over k of left (b, s, k) times right (o, k). The
  left operand's first two axes and the right operand's first are the result's three axes, in that order.
-/
import proofs.«131805_j34935263985944_1_alg».proof.Proof.Gen.ReferenceIdeal
import Idealize.ShloMosaic.Lib.ValueIdx
import Idealize.ShloMosaic.PureOps.Ideal.Laws

noncomputable section

namespace Cert.ReferenceIdeal.DotAt

open Idealize.ShloMosaic Idealize.ShloMosaic.ValueIdx Cert.ReferenceIdeal Cert.ReferenceIdeal.Gen

theorem lhs_0 (i : S4x8192x512.Idx) (q : dot_S4x8192x512_S512x512_S4x8192x512_2_1_01_0_n_n.contr.Idx) :
    (dot_S4x8192x512_S512x512_S4x8192x512_2_1_01_0_n_n.lhsIdx i q 0).val = (i 0).val := by
  unfold DotDims.lhsIdx
  rw [dif_neg (show ¬(0 : Fin S4x8192x512.rank) ∈ dot_S4x8192x512_S512x512_S4x8192x512_2_1_01_0_n_n.lhsBatch by decide), dif_pos (show (0 : Fin S4x8192x512.rank) ∈ dot_S4x8192x512_S512x512_S4x8192x512_2_1_01_0_n_n.lhsNonContracting by decide)]
  rfl
theorem lhs_1 (i : S4x8192x512.Idx) (q : dot_S4x8192x512_S512x512_S4x8192x512_2_1_01_0_n_n.contr.Idx) :
    (dot_S4x8192x512_S512x512_S4x8192x512_2_1_01_0_n_n.lhsIdx i q 1).val = (i 1).val := by
  unfold DotDims.lhsIdx
  rw [dif_neg (show ¬(1 : Fin S4x8192x512.rank) ∈ dot_S4x8192x512_S512x512_S4x8192x512_2_1_01_0_n_n.lhsBatch by decide), dif_pos (show (1 : Fin S4x8192x512.rank) ∈ dot_S4x8192x512_S512x512_S4x8192x512_2_1_01_0_n_n.lhsNonContracting by decide)]
  rfl
theorem lhs_2 (i : S4x8192x512.Idx) (q : dot_S4x8192x512_S512x512_S4x8192x512_2_1_01_0_n_n.contr.Idx) :
    (dot_S4x8192x512_S512x512_S4x8192x512_2_1_01_0_n_n.lhsIdx i q 2).val = (q ⟨0, by decide⟩).val :=
  dot_S4x8192x512_S512x512_S4x8192x512_2_1_01_0_n_n.lhsIdx_val_of_single rfl i q
theorem rhs_0 (i : S4x8192x512.Idx) (q : dot_S4x8192x512_S512x512_S4x8192x512_2_1_01_0_n_n.contr.Idx) :
    (dot_S4x8192x512_S512x512_S4x8192x512_2_1_01_0_n_n.rhsIdx i q 0).val = (i 2).val := by
  unfold DotDims.rhsIdx
  rw [dif_neg (show ¬(0 : Fin S512x512.rank) ∈ dot_S4x8192x512_S512x512_S4x8192x512_2_1_01_0_n_n.rhsBatch by decide), dif_pos (show (0 : Fin S512x512.rank) ∈ dot_S4x8192x512_S512x512_S4x8192x512_2_1_01_0_n_n.rhsNonContracting by decide)]
  rfl
theorem rhs_1 (i : S4x8192x512.Idx) (q : dot_S4x8192x512_S512x512_S4x8192x512_2_1_01_0_n_n.contr.Idx) :
    (dot_S4x8192x512_S512x512_S4x8192x512_2_1_01_0_n_n.rhsIdx i q 1).val = (q ⟨0, by decide⟩).val :=
  dot_S4x8192x512_S512x512_S4x8192x512_2_1_01_0_n_n.rhsIdx_val_of_single rfl i q

/-- Entry (b, s, o) of the contraction is the sum over k of left (b, s, k) · right (o, k). -/
theorem dot_at {φ₁ φ₂ : FTy} (l : FVec Ideal S4x8192x512 φ₁) (r : FVec Ideal S512x512 φ₂) (b : Fin 4) (s : Fin 8192) (o : Fin 512) :
    Host.dotGeneral dot_S4x8192x512_S512x512_S4x8192x512_2_1_01_0_n_n none l r (ix3 b s o)
      = ∑ k : Fin 512, l (ix3 b s k) * r (ix2 o k) := by
  simp only [Host.dotGeneral]
  rw [Ideal.dotGeneral_apply, ← Equiv.sum_comp (ValueIdx.contrEquiv1 dot_S4x8192x512_S512x512_S4x8192x512_2_1_01_0_n_n 512 rfl rfl).symm]
  refine Finset.sum_congr rfl fun k _ => ?_
  have hk := ValueIdx.contrEquiv1_symm_val dot_S4x8192x512_S512x512_S4x8192x512_2_1_01_0_n_n 512 rfl rfl k
  have el : dot_S4x8192x512_S512x512_S4x8192x512_2_1_01_0_n_n.lhsIdx (ix3 b s o) ((ValueIdx.contrEquiv1 dot_S4x8192x512_S512x512_S4x8192x512_2_1_01_0_n_n 512 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : dot_S4x8192x512_S512x512_S4x8192x512_2_1_01_0_n_n.rhsIdx (ix3 b s o) ((ValueIdx.contrEquiv1 dot_S4x8192x512_S512x512_S4x8192x512_2_1_01_0_n_n 512 rfl rfl).symm k) = ix2 o k := funext fun a => Fin.ext (by
    match a with
    | ⟨0, _⟩ => exact rhs_0 _ _
    | ⟨1, _⟩ => exact (rhs_1 _ _).trans hk)
  rw [el, er]

end Cert.ReferenceIdeal.DotAt

end
-- ==== Proof.Bridge.lean ====
/-
  The two programs' results are one function of the arguments. Read at (b, s, o):
    the kernel's result is the 32768 × 512 output array at row 8192·b + s, column o, which is
        Σ_k (Σ_d X (8192·b + s, d) · A (d, k)) · B (k, o)
    with X the input viewed as 32768 rows (so X (8192·b + s, d) is the input at (b, s, d)), A the transposed
    dequantized weight (A (d, k) is the weight at (k, d)) and B the transposed dense weight (B (k, o) is the dense
    weight at (o, k));
    the reference's result is the second contraction of the first,
        Σ_k (Σ_d input (b, s, d) · weight (k, d)) · dense (o, k).
  The two sums agree term by term; no law of arithmetic is used, and the dequantized weight stays an unopened array.
-/
import proofs.«131805_j34935263985944_1_alg».proof.Proof.Blocks
import proofs.«131805_j34935263985944_1_alg».proof.Proof.DotAt

noncomputable section

namespace Cert.Bridge

open Idealize.ShloMosaic Idealize.ShloMosaic.ValueIdx

/-- The kernel's result term is the reference's, for every input `x`, weight `wq` and dense weight `w`. -/
theorem result_eq (x : FVec Ideal Cert.KernelIdeal.S4x8192x512 .f32) (wq w : FVec Ideal Cert.KernelIdeal.S512x512 .f32) :
    shapeCast Cert.KernelIdeal.S4x8192x512
      (Cert.KernelIdeal.Blocks.out
        (shapeCast Cert.KernelIdeal.S32768x512 x Cert.KernelIdeal.Facts₀.shapeCasts_S4x8192x512_S32768x512)
        (truncf .bf16 (transpose Cert.KernelIdeal.S512x512 [1, 0] wq Cert.KernelIdeal.Facts₀.transposes_S512x512_S512x512_1_0) Cert.KernelIdeal.Facts₀.bitsLt_bf16_f32)
        (truncf .bf16 (transpose Cert.KernelIdeal.S512x512 [1, 0] w Cert.KernelIdeal.Facts₀.transposes_S512x512_S512x512_1_0) Cert.KernelIdeal.Facts₀.bitsLt_bf16_f32))
      Cert.KernelIdeal.Facts₀.shapeCasts_S32768x512_S4x8192x512
    = Host.dotGeneral Cert.ReferenceIdeal.dot_S4x8192x512_S512x512_S4x8192x512_2_1_01_0_n_n none
        (Host.dotGeneral Cert.ReferenceIdeal.dot_S4x8192x512_S512x512_S4x8192x512_2_1_01_0_n_n none x wq) w := by
  funext i
  obtain ⟨b, s, o, rfl⟩ : ∃ (b : Fin 4) (s : Fin 8192) (o : Fin 512), i = ix3 b s o := ⟨i 0, i 1, i 2, eq_ix3 i⟩
  rw [Cert.ReferenceIdeal.DotAt.dot_at]
  have hr : b.val * 8192 + s.val < 32768 := by omega
  refine (shapeCast_apply _ _ (ix3 b s o) (ix2 ⟨b.val * 8192 + s.val, hr⟩ o) ?_).trans ?_
  · rw [Shape.rowMajor_val_two, Shape.rowMajor_val_three]; rfl
  unfold Cert.KernelIdeal.Blocks.out Cert.KernelIdeal.Blocks.outAt
  refine Finset.sum_congr rfl fun k _ => ?_
  rw [Cert.ReferenceIdeal.DotAt.dot_at]
  refine congrArg₂ (· * ·) (Finset.sum_congr rfl fun d _ => congrArg₂ (· * ·) ?_ ?_) ?_
  · exact shapeCast_apply _ _ _ (ix3 b s d) (by rw [Shape.rowMajor_val_two, Shape.rowMajor_val_three]; rfl)
  · show transpose Cert.KernelIdeal.S512x512 [1, 0] wq _ (ix2 d k) = wq (ix2 k d)
    exact transpose_apply [1, 0] wq _ (ix2 d k) (ix2 k d) (fun a => by
      match a with
      | ⟨0, _⟩ => rfl
      | ⟨1, _⟩ => rfl)
  · show transpose Cert.KernelIdeal.S512x512 [1, 0] w _ (ix2 k o) = w (ix2 o k)
    exact transpose_apply [1, 0] w _ (ix2 k o) (ix2 o k) (fun a => by
      match a with
      | ⟨0, _⟩ => rfl
      | ⟨1, _⟩ => rfl)

end Cert.Bridge

end
-- ==== Proof.lean ====
/-
  The kernel computes, on a 32768-row view of the input and in blocks of 2048 rows, the product of each block with
  the transposed dequantized weight and of that product with the transposed dense weight; the reference contracts
  the input with the dequantized weight and the result with the dense weight. Both dequantize the codes by the same
  operations. On the extended reals, where a change of float format is the identity, entry (b, s, o) of either result
  is  Σ_k (Σ_d x (b, s, d) · wl (k, d)) · W (o, k)  with wl the dequantized weight: the same sum, term by term, with
  no law of arithmetic between them, so the inputs' finiteness is never used.

  The pieces: the matrix product and the contraction read at an entry (MatmulAt, DotAt); the dequantized weight as one
  unopened function (Weight); the reference's run (HostRun); the arrays the kernel's region reads (Entry); what the
  body stores at an entry (Payload); the output array from its sixteen blocks (Blocks); the kernel program's run with
  the reshape after the region (KernelRun); the two result terms equal (Bridge). The kernel programs' frames are the
  generated ones; the reference's frame is its run with the result dropped; nothing was rewritten by the ideal pass.
-/
import proofs.«131805_j34935263985944_1_alg».proof.Defs
import proofs.«131805_j34935263985944_1_alg».proof.Proof.Gen.Kernel
import proofs.«131805_j34935263985944_1_alg».proof.Proof.Gen.Kernel.Skeleton
import proofs.«131805_j34935263985944_1_alg».proof.Proof.Gen.Kernel.Launch
import proofs.«131805_j34935263985944_1_alg».proof.Proof.Gen.Kernel.Points
import proofs.«131805_j34935263985944_1_alg».proof.Proof.Gen.Kernel.Frame
import proofs.«131805_j34935263985944_1_alg».proof.Proof.Gen.KernelIdeal
import proofs.«131805_j34935263985944_1_alg».proof.Proof.Gen.KernelIdeal.Skeleton
import proofs.«131805_j34935263985944_1_alg».proof.Proof.Gen.KernelIdeal.Launch
import proofs.«131805_j34935263985944_1_alg».proof.Proof.Gen.KernelIdeal.Points
import proofs.«131805_j34935263985944_1_alg».proof.Proof.Gen.KernelIdeal.Frame
import proofs.«131805_j34935263985944_1_alg».proof.Proof.Gen.ReferenceIdeal
import proofs.«131805_j34935263985944_1_alg».proof.Proof.Gen.Pre_finite_inputs
import proofs.«131805_j34935263985944_1_alg».proof.Proof.KernelRun
import proofs.«131805_j34935263985944_1_alg».proof.Proof.HostRun
import proofs.«131805_j34935263985944_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.HostRun.run (F := Ideal) m ρ)

/-- The ideal pass rewrote nothing. -/
theorem preserves : Cert.preserves_Kernel_KernelIdeal := trivial

/-- The kernel program's result term and the reference's are one function of the arguments. -/
theorem results_eq (x : (⟨Cert.KernelIdeal.S4x8192x512, .f32⟩ : BufTy).Contents (Elt Ideal))
    (q : (⟨Cert.KernelIdeal.S512x512, .i32⟩ : BufTy).Contents (Elt Ideal))
    (s : (⟨Cert.KernelIdeal.S4096, .f32⟩ : BufTy).Contents (Elt Ideal))
    (w : (⟨Cert.KernelIdeal.S512x512, .f32⟩ : BufTy).Contents (Elt Ideal)) :
    Cert.ReferenceIdeal.HostRun.result (F := Ideal) x q s w = Cert.KernelIdeal.Run.result x q s w :=
  (Cert.Bridge.result_eq x (Cert.Dequant.wl Cert.Dequant.table q s) w).symm

/-- From memories that agree on the four arguments both programs run, and the result buffers end equal. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2]
  exact results_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
